-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S1024x64 : Shape := ⟨2, ![1024, 64]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S65536x64 .f32) (main_arg1 : FVec F S1024x64 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S65536x64 : Shape := ⟨2, ![65536, 64]⟩
abbrev S1024x64 : Shape := ⟨2, ![1024, 64]⟩
abbrev S_ : Shape := ⟨0, ![]⟩
abbrev S1024 : Shape := ⟨1, ![1024]⟩
abbrev S1x1024 : Shape := ⟨2, ![1, 1024]⟩
abbrev S65536x1024 : Shape := ⟨2, ![65536, 1024]⟩
abbrev S2048x64 : Shape := ⟨2, ![2048, 64]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 7
  | .vmem => 6
  | .smem => 0
  | _ => 0

abbrev bufTy : (tb : Table) → Fin (tcTables nBuf tb) → BufTy
  | .hbm, ⟨0, _⟩ => ⟨S65536x64, .f32⟩
  | .hbm, ⟨1, _⟩ => ⟨S1024x64, .f32⟩
  | .hbm, ⟨2, _⟩ => ⟨S1024x64, .f32⟩
  | .hbm, ⟨3, _⟩ => ⟨S_, .f32⟩
  | .hbm, ⟨4, _⟩ => ⟨S1024, .f32⟩
  | .hbm, ⟨5, _⟩ => ⟨S1x1024, .f32⟩
  | .hbm, ⟨6, _⟩ => ⟨S65536x1024, .f32⟩
  | .local _ .vmem, ⟨0, _⟩ => ⟨S2048x64, .f32⟩
  | .local _ .vmem, ⟨1, _⟩ => ⟨S2048x64, .f32⟩
  | .local _ .vmem, ⟨2, _⟩ => ⟨S1024x64, .f32⟩
  | .local _ .vmem, ⟨3, _⟩ => ⟨S1x1024, .f32⟩
  | .local _ .vmem, ⟨4, _⟩ => ⟨S2048x1024, .f32⟩
  | .local _ .vmem, ⟨5, _⟩ => ⟨S2048x1024, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S1024x64_S1024_d1 : S1024x64.ReducesTo [1] S1024
  h_S_ : 0 < S_.numel
  bcast_S1024_S1x1024_1 : S1024.BroadcastsInDim S1x1024 (![1] : Fin 1 → Fin S1x1024.rank)
  inb_S2048x64_S2048x64_0_0 : ∀ a, (![0, 0] : Fin 2 → Nat) a + S2048x64.size a ≤ S2048x64.size a
  h_S2048x64 : 0 < S2048x64.numel
  inb_S1024x64_S1024x64_0_0 : ∀ a, (![0, 0] : Fin 2 → Nat) a + S1024x64.size a ≤ S1024x64.size a
  h_S1024x64 : 0 < S1024x64.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S2048x64_S2048 : S2048x64.Reduces [1] S2048
  shapeCasts_S2048_S2048x1 : S2048.ShapeCasts S2048x1
  bitsLt_bf16_f32 : FTy.bits .bf16 < FTy.bits .f32
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x64_S1024x64_S2048x1024_1_1_0_0_n_n_wf : DotDims.WF S2048x64 S1024x64 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S65536x64.size a
  hwx0_0 : ∀ i : grid0.Coords, EltTy.bits .f32 = 32 ∨ (Rect.block (s := S65536x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S65536x1024.size a
  hwx0_3 : ∀ i : grid0.Coords, EltTy.bits .f32 = 32 ∨ (Rect.block (s := S65536x1024) S2048x1024.size (cc0_transform_3 i) (hinb0_3 i)).WholeWords (EltTy.packing .f32)

variable [Facts₀]

def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x64 : Shape := ⟨2, ![65536, 64]⟩
abbrev S1024x64 : Shape := ⟨2, ![1024, 64]⟩
abbrev S_ : Shape := ⟨0, ![]⟩
abbrev S65536 : Shape := ⟨1, ![65536]⟩
abbrev S65536x1 : Shape := ⟨2, ![65536, 1]⟩
abbrev S1024 : Shape := ⟨1, ![1024]⟩
abbrev S65536x1024 : Shape := ⟨2, ![65536, 1024]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S1024x64, .f32⟩
  | .hbm, ⟨2, _⟩ => ⟨S65536x64, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S65536x1024, .f32⟩
  | .hbm, ⟨10, _⟩ => ⟨S1x1024, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S_, .f32⟩
  | .hbm, ⟨19, _⟩ => ⟨S65536x1024, .f32⟩
  | .hbm, ⟨20, _⟩ => ⟨S65536x1024, .f32⟩
  | .hbm, ⟨21, _⟩ => ⟨S_, .f32⟩
  | .hbm, ⟨22, _⟩ => ⟨S65536x1024, .f32⟩
  | .hbm, ⟨23, _⟩ => ⟨S65536x1024, .f32⟩
  | .hbm, ⟨24, _⟩ => ⟨S65536x1024, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S65536x64_S65536_d1 : S65536x64.ReducesTo [1] S65536
  h_S_ : 0 < S_.numel
  bcast_S65536_S65536x1_0 : S65536.BroadcastsInDim S65536x1 (![0] : Fin 1 → Fin S65536x1.rank)
  reducesTo_S1024x64_S1024_d1 : S1024x64.ReducesTo [1] S1024
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  dot_S65536x64_S1024x64_S65536x1024_1_1_0_0_n_n_wf : DotDims.WF S65536x64 S1024x64 S65536x1024 [1] [1] [0] [0] [] []

variable [Facts₀]

def dot_S65536x64_S1024x64_S65536x1024_1_1_0_0_n_n : DotDims S65536x64 S1024x64 S65536x1024 where
  lhsContracting := [1]
  rhsContracting := [1]
  lhsNonContracting := [0]
  rhsNonContracting := [0]
  lhsBatch := []
  rhsBatch := []
  wf := dot_S65536x64_S1024x64_S65536x1024_1_1_0_0_n_n_wf

class Facts : Prop extends Facts₀ where

variable [Facts]
-- ==== Proof.Spec.lean ====
/-
  The radial-basis layer as one function of its two argument arrays.

  For points `x : [65536, 64]` and centers `c : [1024, 64]`, entry `(r, n)` of the result is
  `exp(γ' · max(‖x_r‖² + ‖c_n‖² − 2 · ⟨x_r, c_n⟩, 0))`: the squared distance from point `r` to center `n` by the
  expansion `‖x − c‖² = ‖x‖² + ‖c‖² − 2⟨x, c⟩`, clamped at zero, scaled by `γ'` (the f32 nearest `−1/10`) and
  exponentiated. The three float literals are kept as their words: both programs carry the same words, so their
  values are never needed.
-/
import Idealize.ShloMosaic.PureOps.Ideal
import Idealize.ShloMosaic.Lib.ValueIdx

noncomputable section

namespace Cert.Rbf

open Idealize.ShloMosaic Idealize.ShloMosaic.ValueIdx

/-- `‖x_r‖²`: the sum over the 64 features of row `r`'s squares. -/
def rowSq {A : Nat} (x : (⟨2, ![A, 64]⟩ : Shape).Idx → EReal) (r : Fin A) : EReal :=
  ∑ k : Fin 64, x (ix2 r k) * x (ix2 r k)

/-- `⟨x_r, c_n⟩`: the inner product of row `r` of `x` with row `n` of `c`. -/
def inner {A B : Nat} (x : (⟨2, ![A, 64]⟩ : Shape).Idx → EReal) (c : (⟨2, ![B, 64]⟩ : Shape).Idx → EReal)
    (r : Fin A) (n : Fin B) : EReal :=
  ∑ k : Fin 64, x (ix2 r k) * c (ix2 n k)

/-- The layer's response from the two squared norms and the inner product:
    `exp(γ' · max((xs + cs) − 2 · ip, 0))`. -/
def response (xs cs ip : EReal) : EReal :=
  Ideal.exp (Ideal.ofBits .f32 0xBDCCCCCD#32
    * max (xs + cs - Ideal.ofBits .f32 0x40000000#32 * ip) (Ideal.ofBits .f32 0x00000000#32))

/-- The whole result array: entry `(r, n)` is the response of point `r` to center `n`. -/
def layer (x : (⟨2, ![65536, 64]⟩ : Shape).Idx → EReal) (c : (⟨2, ![1024, 64]⟩ : Shape).Idx → EReal) :
    (⟨2, ![65536, 1024]⟩ : Shape).Idx → EReal :=
  fun i => response (rowSq x (i 0)) (rowSq c (i 1)) (inner x c (i 0) (i 1))

theorem layer_apply (x : (⟨2, ![65536, 64]⟩ : Shape).Idx → EReal) (c : (⟨2, ![1024, 64]⟩ : Shape).Idx → EReal)
    (r : Fin 65536) (n : Fin 1024) :
    layer x c (ix2 r n) = response (rowSq x r) (rowSq c n) (inner x c r n) := rfl

end Cert.Rbf

end
-- ==== Proof.LibKeepdims.lean ====
/-
  A row vector and a column vector spread over a matrix, read at one entry.

  A length-`a` vector recast as an `[a, 1]` column holds, in row `i`, the vector's entry `i`. A column `[a, 1]`
  broadcast to `[a, b]` holds in entry `(i, j)` the column's row `i`; a row `[1, b]` broadcast to `[a, b]` holds in
  entry `(i, j)` the row's column `j`. Together: `u[:, None] + v[None, :]` at `(i, j)` is `u i + v j`.
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- A length-`a` vector recast as an `[a, 1]` column reads, at `(i, u)`, the vector at `i`: both indices have the same
    row-major position, `i · 1 + 0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` (with `1 < a`, so that the row axis is not itself a unit axis) reads, at
    `(i, j)`, the column's row `i`. -/
theorem broadcastTo_a1_ab_apply {a b : ℕ} (ha : a ≠ 1) (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by show i.val = if a = 1 then 0 else i.val; rw [if_neg ha]
    | ⟨1, _⟩ => by show 0 = if (1 : ℕ) = 1 then 0 else j.val; rw [if_pos rfl])

/-- A `[1, b]` row broadcast to `[a, b]` (with `1 < b`) reads, at `(i, j)`, the row's column `j`. -/
theorem broadcastTo_1b_ab_apply {a b : ℕ} (hb : b ≠ 1) (x : (⟨2, ![1, b]⟩ : Shape).Idx → α)
    (h : (⟨2, ![1, b]⟩ : Shape).Broadcasts ⟨2, ![a, b]⟩) (i : Fin a) (j : Fin b) :
    broadcastTo ⟨2, ![a, b]⟩ x h (ix2 i j) = x (ix2 (0 : Fin 1) j) :=
  broadcastTo_apply x h _ _ (fun c => match c with
    | ⟨0, _⟩ => by show 0 = if (1 : ℕ) = 1 then 0 else i.val; rw [if_pos rfl]
    | ⟨1, _⟩ => by show j.val = if b = 1 then 0 else j.val; rw [if_neg hb])

end Idealize.ShloMosaic.Keepdims

end
-- ==== Proof.LibMatmulNtAt.lean ====
/-
  A matrix product against a transposed right operand, into a zero accumulator, read at one entry over the extended
  reals.

  For dimension numbers that contract the SECOND axis of both operands, with no batch axis — the left operand
  `[A × K]` is read at (row, k) and the right operand `[B × K]` at (column, k), which is `l · rᵀ` — the entry (p, q) of
  the product is `∑ₖ l[p, k] · r[q, k]`. The four facts about where the dimension numbers read their operands are
  hypotheses, so that the lemma serves any record of this kind.
-/
import Idealize.ShloMosaic.PureOps.Ideal.Laws
import Idealize.ShloMosaic.Lib.ValueIdx

noncomputable section

namespace Idealize.ShloMosaic.MatmulNtAt

open Idealize.ShloMosaic Idealize.ShloMosaic.ValueIdx

/-- Entry (p, q) of `l · rᵀ` accumulated into zero is the sum over the contracted axis of `l[p, k] · r[q, k]`, for
    dimension numbers `D` whose one contracted axis has extent `K` (`hr`, `hs`) and which read the left operand at
    (row, k) (`hl0`, `hl1`) and the right at (column, k) (`hr0`, `hr1`). -/
theorem matmul_nt_zero_at {A K B : Nat} {φ₁ φ₂ : FTy}
    (D : DotDims (⟨2, ![A, K]⟩ : Shape) (⟨2, ![B, K]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (i 1).val)
    (hr1 : ∀ (i : (⟨2, ![A, B]⟩ : Shape).Idx) (q : D.contr.Idx), (D.rhsIdx i q 1).val = (q ⟨0, by omega⟩).val)
    (prec : Option ContractPrecision) (l : FVec Ideal (⟨2, ![A, K]⟩ : Shape) φ₁) (r : FVec Ideal (⟨2, ![B, K]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 q k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Idealize.ShloMosaic.MatmulNtAt

end
-- ==== Proof.Payload.lean ====
/-
  The kernel body's stored value at one entry of a block.

  From a block `x` of 2048 points, the whole center array `c` and the row `s` of the centers' squared norms, the body
  stores at `(p, q)` the response `exp(γ' · max((‖x_p‖² + s_q) − 2 · ⟨x_p, c_q⟩, 0))`: the lane sum of `x · x` is `‖x_p‖²`,
  kept as a column and spread along the row; `s` is spread down the columns; the product of `x` with `c` transposed,
  accumulated into zero, is the inner product (the narrowing of both operands to bf16 changes nothing over the
  extended reals).
-/
import proofs.«177428_j87668872446249_1_alg».proof.Proof.Gen.KernelIdeal.Skeleton
import proofs.«177428_j87668872446249_1_alg».proof.Proof.Spec
import proofs.«177428_j87668872446249_1_alg».proof.Proof.LibKeepdims
import proofs.«177428_j87668872446249_1_alg».proof.Proof.LibMatmulNtAt
import Idealize.ShloMosaic.PureOps.Ideal.Laws
import Idealize.ShloMosaic.Lib.Pipeline.Value
import Idealize.ShloMosaic.Lib.ValueIdx

noncomputable section

namespace Cert.Rbf.Body

open Cert.KernelIdeal Cert.KernelIdeal.Gen Idealize.ShloMosaic Idealize.ShloMosaic.ValueIdx
open Idealize.ShloMosaic.Keepdims Idealize.ShloMosaic.MatmulNtAt

/-! ## Where the body's dimension numbers read their operands: the left at (row, k), the right at (column, k) -/

theorem lhs_dot_0 (i : S2048x1024.Idx) (q : dot_S2048x64_S1024x64_S2048x1024_1_1_0_0_n_n.contr.Idx) :
    (dot_S2048x64_S1024x64_S2048x1024_1_1_0_0_n_n.lhsIdx i q 0).val = (i 0).val := by
  unfold DotDims.lhsIdx
  rw [dif_neg (show ¬(0 : Fin S2048x64.rank) ∈ dot_S2048x64_S1024x64_S2048x1024_1_1_0_0_n_n.lhsBatch by decide), dif_pos (show (0 : Fin S2048x64.rank) ∈ dot_S2048x64_S1024x64_S2048x1024_1_1_0_0_n_n.lhsNonContracting by decide)]
  rfl
theorem lhs_dot_1 (i : S2048x1024.Idx) (q : dot_S2048x64_S1024x64_S2048x1024_1_1_0_0_n_n.contr.Idx) :
    (dot_S2048x64_S1024x64_S2048x1024_1_1_0_0_n_n.lhsIdx i q 1).val = (q ⟨0, by decide⟩).val :=
  dot_S2048x64_S1024x64_S2048x1024_1_1_0_0_n_n.lhsIdx_val_of_single rfl i q
theorem rhs_dot_0 (i : S2048x1024.Idx) (q : dot_S2048x64_S1024x64_S2048x1024_1_1_0_0_n_n.contr.Idx) :
    (dot_S2048x64_S1024x64_S2048x1024_1_1_0_0_n_n.rhsIdx i q 0).val = (i 1).val := by
  unfold DotDims.rhsIdx
  rw [dif_neg (show ¬(0 : Fin S1024x64.rank) ∈ dot_S2048x64_S1024x64_S2048x1024_1_1_0_0_n_n.rhsBatch by decide), dif_pos (show (0 : Fin S1024x64.rank) ∈ dot_S2048x64_S1024x64_S2048x1024_1_1_0_0_n_n.rhsNonContracting by decide)]
  rfl
theorem rhs_dot_1 (i : S2048x1024.Idx) (q : dot_S2048x64_S1024x64_S2048x1024_1_1_0_0_n_n.contr.Idx) :
    (dot_S2048x64_S1024x64_S2048x1024_1_1_0_0_n_n.rhsIdx i q 1).val = (q ⟨0, by decide⟩).val :=
  dot_S2048x64_S1024x64_S2048x1024_1_1_0_0_n_n.rhsIdx_val_of_single rfl i q

/-! ## The three pieces of the body that are not entrywise -/

/-- The product of the block with the centers transposed, at `(p, q)`, is `⟨x_p, c_q⟩`. -/
theorem inner_at (x : FVec Ideal S2048x64 .f32) (c : FVec Ideal S1024x64 .f32) (p : Fin 2048) (q : Fin 1024) :
    matmul dot_S2048x64_S1024x64_S2048x1024_1_1_0_0_n_n none (truncf .bf16 x bitsLt_bf16_f32) (truncf .bf16 c bitsLt_bf16_f32)
        (constant (F := Ideal) S2048x1024 .f32 0x00000000#32) (ix2 p q)
      = Cert.Rbf.inner x c p q :=
  matmul_nt_zero_at dot_S2048x64_S1024x64_S2048x1024_1_1_0_0_n_n rfl rfl lhs_dot_0 lhs_dot_1 rhs_dot_0 rhs_dot_1 none
    (truncf .bf16 x bitsLt_bf16_f32) (truncf .bf16 c bitsLt_bf16_f32) p q

/-- The lane sum of the block's squares at row `p` is `‖x_p‖²`. -/
theorem laneSum_at (x : FVec Ideal S2048x64 .f32) (hacc : (0x00000000#32 : BitVec 32) = 0x00000000#32) (p : Fin 2048) :
    multiReduction (F := Ideal) .add [1] S2048 (mulf x x) 0x00000000#32 reduces_S2048x64_S2048 (.inl rfl) hacc (ix1 p)
      = Cert.Rbf.rowSq x p := by
  refine (Ideal.multiReduction_add_single (mulf x x) 0x00000000#32 reduces_S2048x64_S2048 (.inl rfl) hacc (ix1 p)).trans ?_
  refine Finset.sum_congr rfl fun k _ => ?_
  have e : reduces_S2048x64_S2048.lift (ix1 p) k = ix2 p k :=
    funext fun a => Fin.ext (by match a with | ⟨0, _⟩ => rfl | ⟨1, _⟩ => rfl)
  rw [e]
  rfl

/-- That lane sum, kept as a column and spread along the rows, at `(p, q)` is `‖x_p‖²`. -/
theorem pointSq_at (x : FVec Ideal S2048x64 .f32) (p : Fin 2048) (q : Fin 1024) :
    broadcastTo S2048x1024 (shapeCast S2048x1 (multiReduction (F := Ideal) .add [1] S2048 (mulf x x) 0x00000000#32
        reduces_S2048x64_S2048 (.inl rfl) rfl) shapeCasts_S2048_S2048x1) broadcasts_S2048x1_S2048x1024 (ix2 p q)
      = Cert.Rbf.rowSq x p :=
  (broadcastTo_a1_ab_apply (by decide) _ broadcasts_S2048x1_S2048x1024 p q).trans
    ((shapeCast_a_a1_apply _ shapeCasts_S2048_S2048x1 p 0).trans (laneSum_at x rfl p))

/-- The row of the centers' squared norms, spread down the columns, at `(p, q)` is its entry `q`. -/
theorem centerSq_at (s : FVec Ideal S1x1024 .f32) (p : Fin 2048) (q : Fin 1024) :
    broadcastTo S2048x1024 (shapeCast S1x1024 s shapeCasts_S1x1024_S1x1024) broadcasts_S1x1024_S2048x1024 (ix2 p q)
      = s (ix2 (0 : Fin 1) q) :=
  (broadcastTo_1b_ab_apply (by decide) _ broadcasts_S1x1024_S2048x1024 p q).trans
    (congrFun (shapeCast_self s shapeCasts_S1x1024_S1x1024) _)

/-! ## The stored value -/

/-- The body's stored value at `(p, q)`: the response of point `p` of the block to center `q`, with the center's
    squared norm read from the row `s`. -/
theorem stored_at (x : FVec Ideal S2048x64 .f32) (c : FVec Ideal S1024x64 .f32) (s : FVec Ideal S1x1024 .f32)
    (p : Fin 2048) (q : Fin 1024) :
    k0_pay1 (F := Ideal) x c s (ix2 p q)
      = Cert.Rbf.response (Cert.Rbf.rowSq x p) (s (ix2 (0 : Fin 1) q)) (Cert.Rbf.inner x c p q) := by
  unfold k0_pay1 Cert.Rbf.response
  exact congrArg Ideal.exp (congrArg (Ideal.ofBits .f32 0xBDCCCCCD#32 * ·)
    (congrArg (max · (Ideal.ofBits .f32 0x00000000#32))
      (congrArg₂ (· - ·) (congrArg₂ (· + ·) (pointSq_at x p q) (centerSq_at s p q))
        (congrArg (Ideal.ofBits .f32 0x40000000#32 * ·) (inner_at x c p q)))))

end Cert.Rbf.Body

end
-- ==== Proof.CenterNorms.lean ====
/-
  The row of the centers' squared norms, as the kernel's region finds it.

  Before the region the program squares the center array, sums each row from a zero and lays the 1024 sums out as a
  `[1, 1024]` row. Entry `(0, n)` of that row is `0 + ∑ₖ c[n,k]²  =  ‖c_n‖²`.
-/
import proofs.«177428_j87668872446249_1_alg».proof.Proof.Gen.KernelIdeal.Frame
import proofs.«177428_j87668872446249_1_alg».proof.Proof.Spec
import Idealize.ShloMosaic.Lib.StableHlo.Run
import Idealize.ShloMosaic.Lib.Pipeline.Value
import Idealize.ShloMosaic.PureOps.Ideal.Laws
import Idealize.ShloMosaic.Lib.ValueIdx

noncomputable section

namespace Cert.Rbf.Centers

open Cert.KernelIdeal Cert.KernelIdeal.Gen Idealize.ShloMosaic Idealize.ShloMosaic.TcCoe Idealize.ShloMosaic.ValueIdx
open Idealize.ShloMosaic.StableHlo Idealize.SL.Sem

variable (m : (ℓ : Loc nD τ sig) → Buf (Elt Ideal) ℓ)

/-- The host stretch before the region, as one function of the center array: square, sum each row from a zero, lay
    the sums out as a row. -/
def normsRow (c : FVec Ideal S1024x64 .f32) : FVec Ideal S1x1024 .f32 :=
  broadcastInDim S1x1024 ![1] bcast_S1024_S1x1024_1
    (Host.reduceAdd (F := Ideal) (mulf c c) (constant (F := Ideal) S_ .f32 0x00000000#32) reducesTo_S1024x64_S1024_d1 h_S_)

/-- Entry `(0, n)` of that row is `‖c_n‖²`. -/
theorem normsRow_at (c : FVec Ideal S1024x64 .f32) (n : Fin 1024) :
    normsRow c (ix2 (0 : Fin 1) n) = Cert.Rbf.rowSq c n := by
  unfold normsRow
  rw [broadcastInDim_apply _ bcast_S1024_S1x1024_1 _ (ix2 (0 : Fin 1) n) (ix1 n) (fun a => match a with
    | ⟨0, _⟩ => by show n.val = if (1024 : Nat) = 1 then 0 else n.val; rw [if_neg (by decide)])]
  simp only [Host.reduceAdd, Ideal.hostReduceAdd_def]
  rw [Ideal.hostReduceAdd_single reducesTo_S1024x64_S1024_d1 (by decide)]
  show Ideal.ofBits .f32 0x00000000#32 + _ = _
  rw [Ideal.ofBits_zero_f32, zero_add]
  refine Finset.sum_congr rfl fun k _ => ?_
  have e : Shape.Reduces.lift (s := S1024x64) (t := S1024) (a := 1) (by decide) (ix1 n) k = ix2 n k :=
    funext fun a => Fin.ext (by match a with | ⟨0, _⟩ => rfl | ⟨1, _⟩ => rfl)
  rw [e]
  rfl

/-- The region finds window 2's array holding that row of the launched center array. -/
theorem V_norms (c : Dev nD) :
    (V m c main_v2 : S1x1024.Idx → EReal) = normsRow (m ((c : Thread nD τ).loc main_arg1)) := by
  dsimp only [V, hostOps0]
  after_results
  rfl

end Cert.Rbf.Centers

end
-- ==== Proof.Blocks.lean ====
/-
  From blocks to the array: the kernel's result array is the layer of its two argument arrays.

  The grid has 32 points. Point `t` is handed rows `2048·t … 2048·t + 2047` of the point array, the whole center array
  and the whole row of the centers' squared norms, and writes back rows `2048·t … 2048·t + 2047` of the result. What it
  writes at `(p, q)` of its block is the response of point `2048·t + p` to center `q` — entry `(2048·t + p, q)` of the
  layer. Every row `r` lies in the block of point `r / 2048`, so the 32 blocks cover the result array, which therefore
  ends holding the layer.
-/
import proofs.«177428_j87668872446249_1_alg».proof.Proof.Gen.KernelIdeal.Value
import proofs.«177428_j87668872446249_1_alg».proof.Proof.Payload
import proofs.«177428_j87668872446249_1_alg».proof.Proof.CenterNorms
import Idealize.ShloMosaic.Lib.Pipeline.Value
import Idealize.ShloMosaic.Lib.ValueIdx
import Idealize.ShloMosaic.Lib.Tactic

noncomputable section

namespace Cert.Rbf.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The launched point array and center array of core `c`. -/
abbrev points (c : Dev nD) : S65536x64.Idx → EReal := m ((c : Thread nD τ).loc main_arg0)
abbrev centers (c : Dev nD) : S1024x64.Idx → EReal := m ((c : Thread nD τ).loc main_arg1)

/-- The printed index maps over the 32 points: the point array's and the result's blocks move down with the point;
    the center array and the row of norms stay at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## Each input block as entries of the launched arrays -/

/-- Row `p` of point `t`'s block of the point array is row `2048·t + p` of the array. -/
theorem pointBlock_at (c : Dev nD) (t : Fin cfg0.N) (p : Fin 2048) (k : Fin 64) (r : Fin 65536)
    (hr : r.val = 2048 * t.val + p.val) :
    (iblk m c 0 t : Vec Ideal S2048x64 .f32) (ix2 p k) = points m c (ix2 r k) := by
  have e : ((cfg0.win 0).blk t).view.emb (ix2 p k) = (ix2 r k : S65536x64.Idx) := by
    funext a; apply Fin.ext
    match a with
    | ⟨0, _⟩ => show win0_0.index t (0 : Fin 2) * 2048 + 1 * p.val = r.val; rw [(index_facts t).1]; omega
    | ⟨1, _⟩ => show win0_0.index t (1 : Fin 2) * 64 + 1 * k.val = k.val; rw [(index_facts t).2.1]; omega
  unfold iblk
  rw [View.read_apply]
  show V m c main_arg0 (((cfg0.win 0).blk t).view.emb (ix2 p k)) = _
  rw [e, V_main_arg0]

/-- Every point's block of the center array is the whole array. -/
theorem centerBlock_at (c : Dev nD) (t : Fin cfg0.N) (n : Fin 1024) (k : Fin 64) :
    (iblk m c 1 t : Vec Ideal S1024x64 .f32) (ix2 n k) = centers m c (ix2 n k) := by
  have e : ((cfg0.win 1).blk t).view.emb (ix2 n k) = (ix2 n k : S1024x64.Idx) := by
    funext a; apply Fin.ext
    match a with
    | ⟨0, _⟩ => show win0_1.index t (0 : Fin 2) * 1024 + 1 * n.val = n.val; rw [(index_facts t).2.2.1]; omega
    | ⟨1, _⟩ => show win0_1.index t (1 : Fin 2) * 64 + 1 * k.val = k.val; rw [(index_facts t).2.2.2.1]; omega
  unfold iblk
  rw [View.read_apply]
  show V m c main_arg1 (((cfg0.win 1).blk t).view.emb (ix2 n k)) = _
  rw [e, V_main_arg1]

/-- Every point's block of the row of norms is the whole row, whose entry `n` is `‖c_n‖²`. -/
theorem normBlock_at (c : Dev nD) (t : Fin cfg0.N) (n : Fin 1024) :
    (iblk m c 2 t : Vec Ideal S1x1024 .f32) (ix2 (0 : Fin 1) n) = Cert.Rbf.rowSq (centers m c) n := by
  have e : ((cfg0.win 2).blk t).view.emb (ix2 (0 : Fin 1) n) = (ix2 (0 : Fin 1) n : S1x1024.Idx) := by
    funext a; apply Fin.ext
    match a with
    | ⟨0, _⟩ => show win0_2.index t (0 : Fin 2) * 1 + 1 * 0 = 0; rw [(index_facts t).2.2.2.2.1]
    | ⟨1, _⟩ => show win0_2.index t (1 : Fin 2) * 1024 + 1 * n.val = n.val; rw [(index_facts t).2.2.2.2.2.1]; omega
  unfold iblk
  rw [View.read_apply]
  show (V m c main_v2 : S1x1024.Idx → EReal) (((cfg0.win 2).blk t).view.emb (ix2 (0 : Fin 1) n)) = _
  rw [e, Cert.Rbf.Centers.V_norms, Cert.Rbf.Centers.normsRow_at]

/-! ## What a point writes back -/

/-- A squared norm depends only on the entries of its row. -/
theorem rowSq_congr {A A' : Nat} (x : (⟨2, ![A, 64]⟩ : Shape).Idx → EReal) (x' : (⟨2, ![A', 64]⟩ : Shape).Idx → EReal)
    (r : Fin A) (r' : Fin A') (h : ∀ k : Fin 64, x (ix2 r k) = x' (ix2 r' k)) :
    Cert.Rbf.rowSq x r = Cert.Rbf.rowSq x' r' := by
  unfold Cert.Rbf.rowSq
  exact Finset.sum_congr rfl fun k _ => by rw [h k]

/-- An inner product depends only on the entries of its two rows. -/
theorem inner_congr {A A' B B' : Nat} (x : (⟨2, ![A, 64]⟩ : Shape).Idx → EReal) (x' : (⟨2, ![A', 64]⟩ : Shape).Idx → EReal)
    (y : (⟨2, ![B, 64]⟩ : Shape).Idx → EReal) (y' : (⟨2, ![B', 64]⟩ : Shape).Idx → EReal)
    (r : Fin A) (r' : Fin A') (n : Fin B) (n' : Fin B')
    (hx : ∀ k : Fin 64, x (ix2 r k) = x' (ix2 r' k)) (hy : ∀ k : Fin 64, y (ix2 n k) = y' (ix2 n' k)) :
    Cert.Rbf.inner x y r n = Cert.Rbf.inner x' y' r' n' := by
  unfold Cert.Rbf.inner
  exact Finset.sum_congr rfl fun k _ => by rw [hx k, hy k]

/-- The body's stored value at `(p, q)` of point `t`'s block is entry `(2048·t + p, q)` of the layer. -/
theorem stored_eq (c : Dev nD) (t : Fin cfg0.N) (p : Fin 2048) (q : Fin 1024) (r : Fin 65536)
    (hr : r.val = 2048 * t.val + p.val) :
    k0_pay1 (F := Ideal) (iblk m c 0 t) (iblk m c 1 t) (iblk m c 2 t) (ix2 p q)
      = Cert.Rbf.layer (points m c) (centers m c) (ix2 r q) := by
  refine (Cert.Rbf.Body.stored_at (iblk m c 0 t) (iblk m c 1 t) (iblk m c 2 t) p q).trans ?_
  rw [Cert.Rbf.layer_apply, normBlock_at m c t q,
    rowSq_congr (A := 2048) (iblk m c 0 t) (points m c) p r (fun k => pointBlock_at m c t p k r hr),
    inner_congr (A := 2048) (B := 1024) (iblk m c 0 t) (points m c) (iblk m c 1 t) (centers m c) p r q q
      (fun k => pointBlock_at m c t p k r hr) (fun k => centerBlock_at m c t q k)]

/-- WHAT POINT `t` WRITES BACK is block `t` of the layer of the launched arrays. -/
theorem flushed_eq (c : Dev nD) (t : Fin cfg0.N) :
    (dats m 0 c).flushed 3 t = ((cfg0.win 3).blk t).view.read (Elt Ideal) (Cert.Rbf.layer (points m c) (centers m c)) := by
  rw [Cert.KernelIdeal.Value.flushed3]
  unfold out0_3
  rw [View.canon_unit_zero hz]
  simp only [View.ld_unit_zero (S := S2048x64) hz, View.ld_unit_zero (S := S1024x64) hz, View.ld_unit_zero (S := S1x1024) hz]
  funext j
  obtain ⟨p, q, rfl⟩ : ∃ (p : Fin 2048) (q : Fin 1024), j = ix2 p q := ⟨j 0, j 1, eq_ix2 j⟩
  have hN : cfg0.N = 32 := N_0
  have ht : t.val < 32 := hN ▸ t.isLt
  have e : ((cfg0.win 3).blk t).view.emb (ix2 p q)
      = (ix2 (⟨2048 * t.val + p.val, by have := p.isLt; omega⟩ : Fin 65536) q : S65536x1024.Idx) := by
    funext a; apply Fin.ext
    match a with
    | ⟨0, _⟩ => show win0_3.index t (0 : Fin 2) * 2048 + 1 * p.val = 2048 * t.val + p.val; rw [(index_facts t).2.2.2.2.2.2.1]; omega
    | ⟨1, _⟩ => show win0_3.index t (1 : Fin 2) * 1024 + 1 * q.val = q.val; rw [(index_facts t).2.2.2.2.2.2.2]; omega
  show k0_pay1 (F := Ideal) (iblk m c 0 t) (iblk m c 1 t) (iblk m c 2 t) (ix2 p q)
    = Cert.Rbf.layer (points m c) (centers m c) (((cfg0.win 3).blk t).view.emb (ix2 p q))
  rw [e]
  exact stored_eq m c t p q _ rfl

/-! ## The 32 blocks cover the result array -/

/-- An index of the result array is in point `t`'s block iff each coordinate is in the block's range on its axis. -/
theorem mem_blk (t : Fin cfg0.N) (i : S65536x1024.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v3).slice (win0_3.rect t)).set ↔ _
  rw [View.set_slice_whole, Rect.mem_set_unit]
  exact Iff.rfl

/-- Row `r` of the result lies in the block of point `r / 2048`. -/
theorem covered (i : S65536x1024.Idx) :
    ∃ t : Fin cfg0.N, (cfg0.win 3).flush t = true ∧ i ∈ ((cfg0.win 3).blk t).view.set := by
  have hN : cfg0.N = 32 := N_0
  have hi0 : (i 0).val < 65536 := (i 0).isLt
  have hi1 : (i 1).val < 1024 := (i 1).isLt
  refine ⟨⟨(i 0).val / 2048, by rw [hN]; omega⟩, flush0_3 _, ?_⟩
  rw [mem_blk]
  intro a
  obtain ⟨-, -, -, -, -, -, e0, e1⟩ := index_facts ⟨(i 0).val / 2048, by rw [hN]; omega⟩
  match a with
  | ⟨0, _⟩ =>
    show win0_3.index _ (0 : Fin 2) * 2048 ≤ (i 0).val ∧ (i 0).val < win0_3.index _ (0 : Fin 2) * 2048 + 2048
    rw [e0]; show (i 0).val / 2048 * 2048 ≤ (i 0).val ∧ (i 0).val < (i 0).val / 2048 * 2048 + 2048; omega
  | ⟨1, _⟩ =>
    show win0_3.index _ (1 : Fin 2) * 1024 ≤ (i 1).val ∧ (i 1).val < win0_3.index _ (1 : Fin 2) * 1024 + 1024
    rw [e1]; omega

/-- THE RESULT ARRAY after the run is the layer of the launched arrays. -/
theorem final (c : Dev nD) : (dats m 0 c).arrAt 3 cfg0.N = Cert.Rbf.layer (points m c) (centers m c) :=
  (dats m 0 c).arrAt_eq_of_cover 3 (Cert.Rbf.layer (points m c) (centers m c)) (fun t _ => flushed_eq m c t) covered

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v3) = Cert.Rbf.layer (points m c) (centers m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Rbf.Blocks

end
-- ==== Proof.RefIsLayer.lean ====
/-
  The reference computes the layer.

  Read one operation at a time, the reference's result at `(r, n)` is
  `exp(γ' · max((0 + ∑ₖ x[r,k]²) + (0 + ∑ₖ c[n,k]²) − 2 · ∑ₖ x[r,k] · c[n,k], 0))`: the two reductions start from a zero,
  which adds nothing, and every broadcast only re-reads a coordinate. That is the layer's response of point `r` to
  center `n`.
-/
import proofs.«177428_j87668872446249_1_alg».proof.Proof.Gen.ReferenceIdeal.Read
import proofs.«177428_j87668872446249_1_alg».proof.Proof.Spec
import Idealize.ShloMosaic.PureOps.Ideal.Laws
import Idealize.ShloMosaic.Lib.ValueIdx

noncomputable section

namespace Cert.Rbf.Ref

open Cert.ReferenceIdeal Cert.ReferenceIdeal.Gen Cert.ReferenceIdeal.Read Idealize.ShloMosaic Idealize.ShloMosaic.ValueIdx

/-! ## The composed index maps of the reference's broadcasts, reductions and product, at `(r, n)` -/

theorem pointRow (r : Fin 65536) (n : Fin 1024) (k : Fin 64) :
    idx_main_v1 (idx_main_v2 (idx_main_v7 (ix2 r n))) k = ix2 r k :=
  funext fun a => Fin.ext (by match a with | ⟨0, _⟩ => rfl | ⟨1, _⟩ => rfl)

theorem centerRow (r : Fin 65536) (n : Fin 1024) (k : Fin 64) :
    idx_main_v4 (idx_main_v6 (idx_main_v8 (ix2 r n))) k = ix2 n k :=
  funext fun a => Fin.ext (by match a with | ⟨0, _⟩ => rfl | ⟨1, _⟩ => rfl)

theorem productLeft (r : Fin 65536) (n : Fin 1024) (k : Fin 64) : lidx_main_v5 (ix2 r n) k = ix2 r k :=
  funext fun a => Fin.ext (by match a with | ⟨0, _⟩ => rfl | ⟨1, _⟩ => rfl)

theorem productRight (r : Fin 65536) (n : Fin 1024) (k : Fin 64) : ridx_main_v5 (ix2 r n) k = ix2 n k :=
  funext fun a => Fin.ext (by match a with | ⟨0, _⟩ => rfl | ⟨1, _⟩ => rfl)

/-- The reference's last stage is the layer of its two arguments. -/
theorem result_eq (x : (⟨S65536x64, .f32⟩ : BufTy).Contents (Elt Ideal)) (c : (⟨S1024x64, .f32⟩ : BufTy).Contents (Elt Ideal)) :
    val_main_v17 (F := Ideal) x c = Cert.Rbf.layer x c := by
  funext i
  obtain ⟨r, n, rfl⟩ : ∃ (r : Fin 65536) (n : Fin 1024), i = ix2 r n := ⟨i 0, i 1, eq_ix2 i⟩
  rw [val_main_v17_apply, val_main_v16_apply, val_main_v15_apply, val_main_cst_3_apply, val_main_v14_apply,
    val_main_v13_apply, val_main_cst_2_apply, val_main_v12_apply, val_main_v11_apply, val_main_v10_apply,
    val_main_cst_1_apply, val_main_v9_apply, val_main_v8_apply, val_main_v7_apply, val_main_v6_apply,
    val_main_v5_apply, val_main_v4_apply, val_main_v2_apply, val_main_v1_apply, val_main_cst_0_apply,
    val_main_cst_apply, Cert.Rbf.layer_apply]
  simp only [val_main_v3_apply, val_main_v0_apply, pointRow, centerRow, productLeft, productRight,
    Cert.Rbf.response, Cert.Rbf.rowSq, Cert.Rbf.inner,
    Ideal.ofBits_def, Ideal.addf_def, Ideal.subf_def, Ideal.mulf_def, Ideal.maximumf_def, Ideal.hostUnary_exp_def,
    Ideal.ofBits_zero_f32, zero_add]

end Cert.Rbf.Ref

end
-- ==== Proof.lean ====
/-
  A radial-basis layer: the Pallas kernel against its jnp reference, over the extended reals.

  Both programs send points `x : [65536, 64]` and centers `c : [1024, 64]` to the array whose entry `(r, n)` is
  `exp(γ' · max(‖x_r‖² + ‖c_n‖² − 2 · ⟨x_r, c_n⟩, 0))` (`Cert.Rbf.layer`, Proof/Spec.lean), with the same three float
  words on both sides.

  The kernel computes the centers' squared norms once before its region and then, over a grid of 32 points, sends each
  block of 2048 points through one body: a lane sum for `‖x_r‖²`, a matrix product against the centers transposed for
  the inner products (narrowing to bf16 is the identity over the extended reals), and the entrywise rest
  (Proof/Payload.lean, Proof/CenterNorms.lean). The 32 blocks it writes back tile the result array
  (Proof/Blocks.lean). The reference computes the same entry directly with a host reduction per squared norm and one
  `dot_general` (Proof/RefIsLayer.lean). The two reductions that start from a zero add nothing, and no other law of
  arithmetic is used: the precondition is never opened.

  The kernel's idealization is the kernel's own text read over the extended reals (no operation of it was replaced),
  so the conjunct that relates the two has nothing to state.
-/
import proofs.«177428_j87668872446249_1_alg».proof.Defs
import proofs.«177428_j87668872446249_1_alg».proof.Proof.Gen.Kernel
import proofs.«177428_j87668872446249_1_alg».proof.Proof.Gen.Kernel.Skeleton
import proofs.«177428_j87668872446249_1_alg».proof.Proof.Gen.Kernel.Launch
import proofs.«177428_j87668872446249_1_alg».proof.Proof.Gen.Kernel.Points
import proofs.«177428_j87668872446249_1_alg».proof.Proof.Gen.Kernel.Frame
import proofs.«177428_j87668872446249_1_alg».proof.Proof.Gen.KernelIdeal
import proofs.«177428_j87668872446249_1_alg».proof.Proof.Gen.KernelIdeal.Skeleton
import proofs.«177428_j87668872446249_1_alg».proof.Proof.Gen.KernelIdeal.Launch
import proofs.«177428_j87668872446249_1_alg».proof.Proof.Gen.KernelIdeal.Points
import proofs.«177428_j87668872446249_1_alg».proof.Proof.Gen.KernelIdeal.Frame
import proofs.«177428_j87668872446249_1_alg».proof.Proof.Gen.ReferenceIdeal
import proofs.«177428_j87668872446249_1_alg».proof.Proof.Gen.Pre_finite_inputs
import proofs.«177428_j87668872446249_1_alg».proof.Proof.Gen.KernelIdeal.Value
import proofs.«177428_j87668872446249_1_alg».proof.Proof.Gen.ReferenceIdeal.Run
import proofs.«177428_j87668872446249_1_alg».proof.Proof.Gen.ReferenceIdeal.Read
import proofs.«177428_j87668872446249_1_alg».proof.Proof.Blocks
import proofs.«177428_j87668872446249_1_alg».proof.Proof.RefIsLayer
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and keeps its arguments: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments, the kernel's result array and the reference's both end holding
    the layer of those arguments. -/
theorem algebraic : Cert.algebraic_KernelIdeal_ReferenceIdeal := by
  intro m ρ m' ρ' _ hagree
  refine ⟨fun c => Cert.Rbf.layer (Cert.Rbf.Blocks.points m c) (Cert.Rbf.Blocks.centers m c),
    Cert.Rbf.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v17_eq, Cert.Rbf.Ref.result_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
